-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x16 : Shape := ⟨2, ![128, 16]⟩
abbrev S16 : Shape := ⟨1, ![16]⟩
abbrev S16x128 : Shape := ⟨2, ![16, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x16 .f32) (main_arg3 : FVec F S16 .f32) (main_arg4 : FVec F S16x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x128 .f32 := Host.absf main_arg4
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x16 : Shape := ⟨2, ![128, 16]⟩
abbrev S16 : Shape := ⟨1, ![16]⟩
abbrev S16x128 : Shape := ⟨2, ![16, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x16 : Shape := ⟨2, ![100000, 16]⟩
abbrev S5000x128 : Shape := ⟨2, ![5000, 128]⟩
abbrev S5000x16 : Shape := ⟨2, ![5000, 16]⟩
abbrev S1700000x16 : Shape := ⟨2, ![1700000, 16]⟩
abbrev S1x16 : Shape := ⟨2, ![1, 16]⟩
abbrev S1700000x128 : Shape := ⟨2, ![1700000, 128]⟩
abbrev S1x128 : Shape := ⟨2, ![1, 128]⟩

abbrev nBuf : Space → Nat
  | .hbm => 83
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x16, .f32⟩
  | .hbm, ⟨3, _⟩ => ⟨S16, .f32⟩
  | .hbm, ⟨4, _⟩ => ⟨S16x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x16, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x16, .f32⟩
  | .hbm, ⟨56, _⟩ => ⟨S1700000x1, .f32⟩
  | .hbm, ⟨57, _⟩ => ⟨S1700000x16, .f32⟩
  | .hbm, ⟨58, _⟩ => ⟨S1700000x16, .f32⟩
  | .hbm, ⟨59, _⟩ => ⟨S_, .f32⟩
  | .hbm, ⟨60, _⟩ => ⟨S100000x16, .f32⟩
  | .hbm, ⟨61, _⟩ => ⟨S1700000x1, .i32⟩
  | .hbm, ⟨62, _⟩ => ⟨S100000x16, .f32⟩
  | .hbm, ⟨63, _⟩ => ⟨S1x16, .f32⟩
  | .hbm, ⟨64, _⟩ => ⟨S100000x128, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x128, .f32⟩
  | .hbm, ⟨74, _⟩ => ⟨S1700000x1, .f32⟩
  | .hbm, ⟨75, _⟩ => ⟨S1700000x128, .f32⟩
  | .hbm, ⟨76, _⟩ => ⟨S1700000x128, .f32⟩
  | .hbm, ⟨77, _⟩ => ⟨S_, .f32⟩
  | .hbm, ⟨78, _⟩ => ⟨S100000x128, .f32⟩
  | .hbm, ⟨79, _⟩ => ⟨S1700000x1, .i32⟩
  | .hbm, ⟨80, _⟩ => ⟨S100000x128, .f32⟩
  | .hbm, ⟨81, _⟩ => ⟨S1x128, .f32⟩
  | .hbm, ⟨82, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S16x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x128_S16x128_0_0 : ∀ a, (![0, 0] : Fin 2 → Nat) a + S16x128.size a ≤ S16x128.size a
  h_S16x128 : 0 < S16x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x16_S5000x16_1_0_0_1_n_n_wf : DotDims.WF S5000x128 S128x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S5000x16_S16x128_S5000x128_1_0_0_1_n_n_wf : DotDims.WF S5000x16 S16x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x128.size a ≤ S16x128.size a
  hwx1_2 : ∀ i : grid1.Coords, EltTy.bits .f32 = 32 ∨ (Rect.block (s := S16x128) S16x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x16 : Shape := ⟨2, ![128, 16]⟩
abbrev S16 : Shape := ⟨1, ![16]⟩
abbrev S16x128 : Shape := ⟨2, ![16, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x16 : Shape := ⟨2, ![100000, 16]⟩
abbrev S_ : Shape := ⟨0, ![]⟩
abbrev S1700000x1 : Shape := ⟨2, ![1700000, 1]⟩
abbrev S1700000x16 : Shape := ⟨2, ![1700000, 16]⟩
abbrev S1x16 : Shape := ⟨2, ![1, 16]⟩
abbrev S1700000x128 : Shape := ⟨2, ![1700000, 128]⟩
abbrev S1x128 : Shape := ⟨2, ![1, 128]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x16, .f32⟩
  | .hbm, ⟨3, _⟩ => ⟨S16, .f32⟩
  | .hbm, ⟨4, _⟩ => ⟨S16x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x16, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x16, .f32⟩
  | .hbm, ⟨56, _⟩ => ⟨S1700000x1, .f32⟩
  | .hbm, ⟨57, _⟩ => ⟨S1700000x16, .f32⟩
  | .hbm, ⟨58, _⟩ => ⟨S1700000x16, .f32⟩
  | .hbm, ⟨59, _⟩ => ⟨S_, .f32⟩
  | .hbm, ⟨60, _⟩ => ⟨S100000x16, .f32⟩
  | .hbm, ⟨61, _⟩ => ⟨S1700000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x128, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x128, .f32⟩
  | .hbm, ⟨112, _⟩ => ⟨S1700000x1, .f32⟩
  | .hbm, ⟨113, _⟩ => ⟨S1700000x128, .f32⟩
  | .hbm, ⟨114, _⟩ => ⟨S1700000x128, .f32⟩
  | .hbm, ⟨115, _⟩ => ⟨S_, .f32⟩
  | .hbm, ⟨116, _⟩ => ⟨S100000x128, .f32⟩
  | .hbm, ⟨117, _⟩ => ⟨S1700000x1, .i32⟩
  | .hbm, ⟨118, _⟩ => ⟨S100000x128, .f32⟩
  | .hbm, ⟨119, _⟩ => ⟨S1x128, .f32⟩
  | .hbm, ⟨120, _⟩ => ⟨S100000x128, .f32⟩
  | .hbm, ⟨121, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x16_S100000x16_1_0_0_1_n_n_wf : DotDims.WF S100000x128 S128x16 S100000x16 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x128_S100000x128_1_0_0_1_n_n_wf : DotDims.WF S100000x16 S16x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Fold.lean ====
/-
  The buffers' contents along the kernel's @main, read against the reference's stages.

  Between its three pallas_calls the kernel's @main runs on the host exactly the reference's own lines: the edge list
  with the self-loops appended (source and destination ends), the degree of every node and from it the weight
  1/sqrt(deg src) · 1/sqrt(deg dst) of every edge, and after each call the gather of the call's output rows at the source
  ends, the scaling by the weights and the scatter-add at the destination ends. None of these lines is opened here:
  each buffer is followed through the stretches of host operations and the calls' write-backs, and what it holds is
  the reference's stage of the same name (the reference computes the weights a second time for its second layer,
  from the same edge list by the same lines, so its second copy is the same array). The reshape of a bias to one
  row holds the bias entry of each column, which is what the reference's broadcast of the bias reads.
-/
import proofs.«128096_j32727650795996_1_alg».proof.Proof.Gen.KernelIdeal.Frame
import proofs.«128096_j32727650795996_1_alg».proof.Proof.RefRead
import Idealize.ShloMosaic.Lib.StableHlo.Run
import Idealize.ShloMosaic.Lib.Pipeline.Value

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F] (m : (ℓ : Loc nD τ sig) → Buf (Elt F) ℓ) (ρ : Dev nD → PrngReg) (c : Dev nD)

/-- The arguments' launch contents, at the reference's types. -/
abbrev A0 : (⟨Cert.ReferenceIdeal.S100000x128, .f32⟩ : BufTy).Contents (Elt F) := m ((c : Thread nD τ).loc main_arg0)
abbrev A1 : (⟨Cert.ReferenceIdeal.S2x1600000, .i32⟩ : BufTy).Contents (Elt F) := m ((c : Thread nD τ).loc main_arg1)
abbrev A2 : (⟨Cert.ReferenceIdeal.S128x16, .f32⟩ : BufTy).Contents (Elt F) := m ((c : Thread nD τ).loc main_arg2)
abbrev A3 : (⟨Cert.ReferenceIdeal.S16, .f32⟩ : BufTy).Contents (Elt F) := m ((c : Thread nD τ).loc main_arg3)
abbrev A4 : (⟨Cert.ReferenceIdeal.S16x128, .f32⟩ : BufTy).Contents (Elt F) := m ((c : Thread nD τ).loc main_arg4)
abbrev A5 : (⟨Cert.ReferenceIdeal.S128, .f32⟩ : BufTy).Contents (Elt F) := m ((c : Thread nD τ).loc main_arg5)

/-! ## Up to the first call: the edge list's two ends and the edges' weights -/

/-- At the first call's entry the first argument is as launched. -/
theorem arg0_3 : W3 m ρ c (Proc.devRef .tc main_arg0) = A0 m c := by
  dsimp only [W3, W2, W1, hostOps0_2, hostOps0_1, hostOps0]
  after_results
/-- At the first call's entry the first weight is as launched. -/
theorem arg2_3 : W3 m ρ c (Proc.devRef .tc main_arg2) = A2 m c := by
  dsimp only [W3, W2, W1, hostOps0_2, hostOps0_1, hostOps0]
  after_results
/-- At the first call's entry: the source end of every edge, the self-loops appended. -/
theorem src_3 : W3 m ρ c (Proc.devRef .tc main_v3) = Cert.ReferenceIdeal.ReadP.val_main_v3 (F := F) (A1 m c) := by
  dsimp only [W3, W2, W1, hostOps0_2, hostOps0_1, hostOps0]
  after_results
  rfl
/-- At the first call's entry: the destination end of every edge, the self-loops appended. -/
theorem dst_3 : W3 m ρ c (Proc.devRef .tc main_v6) = Cert.ReferenceIdeal.ReadP.val_main_v6 (F := F) (A1 m c) := by
  dsimp only [W3, W2, W1, hostOps0_2, hostOps0_1, hostOps0]
  after_results
  rfl
set_option maxHeartbeats 4000000 in
/-- At the first call's entry: the weight of every edge. -/
theorem nrm_3 : W3 m ρ c (Proc.devRef .tc main_v29) = Cert.ReferenceIdeal.ReadP.val_main_v30 (F := F) (A1 m c) := by
  dsimp only [W3, W2, W1, hostOps0_2, hostOps0_1, hostOps0]
  after_results
  rfl
/-- At the first call's entry: the first bias. -/
theorem arg3_3 : W3 m ρ c (Proc.devRef .tc main_arg3) = A3 m c := by
  dsimp only [W3, W2, W1, hostOps0_2, hostOps0_1, hostOps0]
  after_results
/-- At the first call's entry: the second weight. -/
theorem arg4_3 : W3 m ρ c (Proc.devRef .tc main_arg4) = A4 m c := by
  dsimp only [W3, W2, W1, hostOps0_2, hostOps0_1, hostOps0]
  after_results
/-- At the first call's entry: the second bias. -/
theorem arg5_3 : W3 m ρ c (Proc.devRef .tc main_arg5) = A5 m c := by
  dsimp only [W3, W2, W1, hostOps0_2, hostOps0_1, hostOps0]
  after_results

/-! ## Across the first call and the stretch after it -/

/-- The first call leaves it alone: the source end of every edge, the self-loops appended. -/
theorem src_4 : W4 m ρ c (Proc.devRef .tc main_v3) = Cert.ReferenceIdeal.ReadP.val_main_v3 (F := F) (A1 m c) :=
  (W4_of_ne m ρ c main_v3 (by decide)).trans (src_3 m ρ c)
/-- The first call leaves it alone: the destination end of every edge, the self-loops appended. -/
theorem dst_4 : W4 m ρ c (Proc.devRef .tc main_v6) = Cert.ReferenceIdeal.ReadP.val_main_v6 (F := F) (A1 m c) :=
  (W4_of_ne m ρ c main_v6 (by decide)).trans (dst_3 m ρ c)
/-- The first call leaves it alone: the weight of every edge. -/
theorem nrm_4 : W4 m ρ c (Proc.devRef .tc main_v29) = Cert.ReferenceIdeal.ReadP.val_main_v30 (F := F) (A1 m c) :=
  (W4_of_ne m ρ c main_v29 (by decide)).trans (nrm_3 m ρ c)
/-- The first call leaves it alone: the first bias. -/
theorem arg3_4 : W4 m ρ c (Proc.devRef .tc main_arg3) = A3 m c :=
  (W4_of_ne m ρ c main_arg3 (by decide)).trans (arg3_3 m ρ c)
/-- The first call leaves it alone: the second weight. -/
theorem arg4_4 : W4 m ρ c (Proc.devRef .tc main_arg4) = A4 m c :=
  (W4_of_ne m ρ c main_arg4 (by decide)).trans (arg4_3 m ρ c)
/-- The first call leaves it alone: the second bias. -/
theorem arg5_4 : W4 m ρ c (Proc.devRef .tc main_arg5) = A5 m c :=
  (W4_of_ne m ρ c main_arg5 (by decide)).trans (arg5_3 m ρ c)
/-- So does the stretch after it: the source end of every edge, the self-loops appended. -/
theorem src_5 : W5 m ρ c (Proc.devRef .tc main_v3) = Cert.ReferenceIdeal.ReadP.val_main_v3 (F := F) (A1 m c) := by
  dsimp only [W5, hostOps1]
  after_results
  exact src_4 m ρ c
/-- So does the stretch after it: the destination end of every edge, the self-loops appended. -/
theorem dst_5 : W5 m ρ c (Proc.devRef .tc main_v6) = Cert.ReferenceIdeal.ReadP.val_main_v6 (F := F) (A1 m c) := by
  dsimp only [W5, hostOps1]
  after_results
  exact dst_4 m ρ c
/-- So does the stretch after it: the weight of every edge. -/
theorem nrm_5 : W5 m ρ c (Proc.devRef .tc main_v29) = Cert.ReferenceIdeal.ReadP.val_main_v30 (F := F) (A1 m c) := by
  dsimp only [W5, hostOps1]
  after_results
  exact nrm_4 m ρ c
/-- So does the stretch after it: the first bias. -/
theorem arg3_5 : W5 m ρ c (Proc.devRef .tc main_arg3) = A3 m c := by
  dsimp only [W5, hostOps1]
  after_results
  exact arg3_4 m ρ c
/-- So does the stretch after it: the second weight. -/
theorem arg4_5 : W5 m ρ c (Proc.devRef .tc main_arg4) = A4 m c := by
  dsimp only [W5, hostOps1]
  after_results
  exact arg4_4 m ρ c
/-- So does the stretch after it: the second bias. -/
theorem arg5_5 : W5 m ρ c (Proc.devRef .tc main_arg5) = A5 m c := by
  dsimp only [W5, hostOps1]
  after_results
  exact arg5_4 m ρ c

set_option maxHeartbeats 4000000 in
/-- THE FIRST AGGREGATE: if the first call leaves the reference's first product in its output, the stretch after it —
    gather at the source ends, scale by the weights, scatter-add at the destination ends — leaves the reference's
    first aggregate. -/
theorem agg1 (h30 : W4 m ρ c (Proc.devRef .tc main_v30) = Cert.ReferenceIdeal.ReadP.val_main_v7 (F := F) (A0 m c) (A2 m c)) :
    W5 m ρ c (Proc.devRef .tc main_v43) = Cert.ReferenceIdeal.ReadP.val_main_v43 (F := F) (A0 m c) (A1 m c) (A2 m c) := by
  dsimp only [W5, hostOps1]
  after_results
  rw [h30, src_4, dst_4, nrm_4]
  rfl

/-- The first bias reshaped to one row holds the bias entry of each column. -/
theorem bias1_row (y : S1x16.Idx) :
    W5 m ρ c (Proc.devRef .tc main_v44) y = A3 m c (fun a => match a with | ⟨0, _⟩ => ⟨(y 1).val, (y 1).isLt⟩) := by
  have e : W5 m ρ c (Proc.devRef .tc main_v44) = shapeCast S1x16 (W4 m ρ c (Proc.devRef .tc main_arg3) : S16.Idx → Elt F .f32) shapeCasts_S16_S1x16 := by
    dsimp only [W5, hostOps1]
    after_results
    rfl
  rw [e, arg3_4]
  refine shapeCast_apply (s := S16) (t := S1x16) (A3 m c) shapeCasts_S16_S1x16 y (fun a => match a with | ⟨0, _⟩ => ⟨(y 1).val, (y 1).isLt⟩) ?_
  have h1 : (S16.rowMajor (fun a => match a with | ⟨0, _⟩ => ⟨(y 1).val, (y 1).isLt⟩)).val = (y 1).val := Shape.rowMajor_val_one (d := ![16]) _
  have h2 : (S1x16.rowMajor y).val = (y 0).val * 16 + (y 1).val := Shape.rowMajor_val_two (d := ![1, 16]) y
  have h0 : (y 0).val < 1 := (y 0).isLt
  rw [h1, h2]
  omega

/-! ## Across the second call and the stretch after it -/

/-- The second call leaves it alone: the source end of every edge, the self-loops appended. -/
theorem src_6 : W6 m ρ c (Proc.devRef .tc main_v3) = Cert.ReferenceIdeal.ReadP.val_main_v3 (F := F) (A1 m c) :=
  (W6_of_ne m ρ c main_v3 (by decide)).trans (src_5 m ρ c)
/-- The second call leaves it alone: the destination end of every edge, the self-loops appended. -/
theorem dst_6 : W6 m ρ c (Proc.devRef .tc main_v6) = Cert.ReferenceIdeal.ReadP.val_main_v6 (F := F) (A1 m c) :=
  (W6_of_ne m ρ c main_v6 (by decide)).trans (dst_5 m ρ c)
/-- The second call leaves it alone: the weight of every edge. -/
theorem nrm_6 : W6 m ρ c (Proc.devRef .tc main_v29) = Cert.ReferenceIdeal.ReadP.val_main_v30 (F := F) (A1 m c) :=
  (W6_of_ne m ρ c main_v29 (by decide)).trans (nrm_5 m ρ c)
/-- The second call leaves it alone: the second bias. -/
theorem arg5_6 : W6 m ρ c (Proc.devRef .tc main_arg5) = A5 m c :=
  (W6_of_ne m ρ c main_arg5 (by decide)).trans (arg5_5 m ρ c)

set_option maxHeartbeats 4000000 in
/-- THE SECOND AGGREGATE: if the second call leaves the reference's second product in its output, the stretch after
    it leaves the reference's second aggregate (the reference computes the weights again for this layer, by the same
    lines from the same edge list: the same array). -/
theorem agg2 (h45 : W6 m ρ c (Proc.devRef .tc main_v45) = Cert.ReferenceIdeal.ReadP.val_main_v48 (F := F) (A0 m c) (A1 m c) (A2 m c) (A3 m c) (A4 m c)) :
    W7 m ρ c (Proc.devRef .tc main_v58) = Cert.ReferenceIdeal.ReadP.val_main_v84 (F := F) (A0 m c) (A1 m c) (A2 m c) (A3 m c) (A4 m c) := by
  dsimp only [W7, hostOps2]
  after_results
  rw [h45, src_6, dst_6, nrm_6]
  rfl

/-- The second bias reshaped to one row holds the bias entry of each column. -/
theorem bias2_row (y : S1x128.Idx) :
    W7 m ρ c (Proc.devRef .tc main_v59) y = A5 m c (fun a => match a with | ⟨0, _⟩ => ⟨(y 1).val, (y 1).isLt⟩) := by
  have e : W7 m ρ c (Proc.devRef .tc main_v59) = shapeCast S1x128 (W6 m ρ c (Proc.devRef .tc main_arg5) : S128.Idx → Elt F .f32) shapeCasts_S128_S1x128 := by
    dsimp only [W7, hostOps2]
    after_results
    rfl
  rw [e, arg5_6]
  refine shapeCast_apply (s := S128) (t := S1x128) (A5 m c) shapeCasts_S128_S1x128 y (fun a => match a with | ⟨0, _⟩ => ⟨(y 1).val, (y 1).isLt⟩) ?_
  have h1 : (S128.rowMajor (fun a => match a with | ⟨0, _⟩ => ⟨(y 1).val, (y 1).isLt⟩)).val = (y 1).val := Shape.rowMajor_val_one (d := ![128]) _
  have h2 : (S1x128.rowMajor y).val = (y 0).val * 128 + (y 1).val := Shape.rowMajor_val_two (d := ![1, 128]) y
  have h0 : (y 0).val < 1 := (y 0).isLt
  rw [h1, h2]
  omega

end Cert.KernelIdeal.Fold

end
-- ==== Proof.Region0.lean ====
/-
  The first pallas_call of the kernel, read as a value over the extended reals.

  The call tiles the 100000 rows of x : [100000, 128] into 20 blocks of 5000 rows, keeps W : [128, 16] whole, and at
  grid point t writes rows 5000·t … 5000·t + 4999 of its output: the matrix product of block t of x with W, into a
  zero accumulator (the narrowing of both factors to bf16 is the identity at the exact instance). Row r of a matrix
  product reads row r of the left factor only, so the twenty blocks are the restrictions of ONE array, the whole
  product x · W — entry (r, q) is ∑ₖ x(r, k) · W(k, q) — and that is what the reference's dot_general computes.
  The blocks tile the output (block r / 5000 holds row r), so after the call the output array IS that product.
-/
import proofs.«128096_j32727650795996_1_alg».proof.Proof.Gen.KernelIdeal.Frame
import proofs.«128096_j32727650795996_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat)

/-! ## The body's product at an index -/

/-- On the left factor's row axis the product's operand index is the output's row. -/
theorem lhs_row (i : S5000x16.Idx) (q : dot_S5000x128_S128x16_S5000x16_1_0_0_1_n_n.contr.Idx) :
    (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
/-- On the left factor's column axis it is the summation index. -/
theorem lhs_sum (i : S5000x16.Idx) (q : dot_S5000x128_S128x16_S5000x16_1_0_0_1_n_n.contr.Idx) :
    (dot_S5000x128_S128x16_S5000x16_1_0_0_1_n_n.lhsIdx i q 1).val = (q ⟨0, by decide⟩).val :=
  dot_S5000x128_S128x16_S5000x16_1_0_0_1_n_n.lhsIdx_val_of_single rfl i q
/-- On the right factor's row axis it is the summation index. -/
theorem rhs_sum (i : S5000x16.Idx) (q : dot_S5000x128_S128x16_S5000x16_1_0_0_1_n_n.contr.Idx) :
    (dot_S5000x128_S128x16_S5000x16_1_0_0_1_n_n.rhsIdx i q 0).val = (q ⟨0, by decide⟩).val :=
  dot_S5000x128_S128x16_S5000x16_1_0_0_1_n_n.rhsIdx_val_of_single rfl i q
/-- On the right factor's column axis it is the output's column. -/
theorem rhs_col (i : S5000x16.Idx) (q : dot_S5000x128_S128x16_S5000x16_1_0_0_1_n_n.contr.Idx) :
    (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- Entry (row of `j`, `k`) of a block of the left factor. -/
abbrev leftAt (j : S5000x16.Idx) (k : Fin 128) : S5000x128.Idx := fun a => match a with
  | ⟨0, _⟩ => ⟨(j 0).val, (j 0).isLt⟩
  | ⟨1, _⟩ => ⟨k.val, k.isLt⟩
/-- Entry (`k`, column of `j`) of the right factor. -/
abbrev rightAt (j : S5000x16.Idx) (k : Fin 128) : S128x16.Idx := fun a => match a with
  | ⟨0, _⟩ => ⟨k.val, k.isLt⟩
  | ⟨1, _⟩ => ⟨(j 1).val, (j 1).isLt⟩

/-- What the body stores, at an index: the sum over the 128 shared coordinates of left entry times right entry. -/
theorem stored_apply (x0 : (⟨S5000x128, .f32⟩ : BufTy).Contents (Elt Ideal)) (x1 : (⟨S128x16, .f32⟩ : BufTy).Contents (Elt Ideal)) (j : S5000x16.Idx) :
    k0_pay1 (F := Ideal) x0 x1 j = ∑ k : Fin 128, x0 (leftAt j k) * x1 (rightAt j k) := by
  unfold k0_pay1
  refine (Ideal.matmul_constant_zero_apply dot_S5000x128_S128x16_S5000x16_1_0_0_1_n_n none _ _ j).trans ?_
  rw [← Equiv.sum_comp (ValueIdx.contrEquiv1 dot_S5000x128_S128x16_S5000x16_1_0_0_1_n_n 128 rfl rfl).symm]
  refine Finset.sum_congr rfl fun k _ => ?_
  have hk := ValueIdx.contrEquiv1_symm_val dot_S5000x128_S128x16_S5000x16_1_0_0_1_n_n 128 rfl rfl k
  have el : dot_S5000x128_S128x16_S5000x16_1_0_0_1_n_n.lhsIdx j ((ValueIdx.contrEquiv1 dot_S5000x128_S128x16_S5000x16_1_0_0_1_n_n 128 rfl rfl).symm k) = leftAt j k := funext fun a => Fin.ext (by
    match a with
    | ⟨0, _⟩ => exact lhs_row _ _
    | ⟨1, _⟩ => exact (lhs_sum _ _).trans hk)
  have er : dot_S5000x128_S128x16_S5000x16_1_0_0_1_n_n.rhsIdx j ((ValueIdx.contrEquiv1 dot_S5000x128_S128x16_S5000x16_1_0_0_1_n_n 128 rfl rfl).symm k) = rightAt j k := funext fun a => Fin.ext (by
    match a with
    | ⟨0, _⟩ => exact (rhs_sum _ _).trans hk
    | ⟨1, _⟩ => exact rhs_col _ _)
  show x0 (dot_S5000x128_S128x16_S5000x16_1_0_0_1_n_n.lhsIdx j ((ValueIdx.contrEquiv1 dot_S5000x128_S128x16_S5000x16_1_0_0_1_n_n 128 rfl rfl).symm k)) * x1 (dot_S5000x128_S128x16_S5000x16_1_0_0_1_n_n.rhsIdx j ((ValueIdx.contrEquiv1 dot_S5000x128_S128x16_S5000x16_1_0_0_1_n_n 128 rfl rfl).symm k)) = _
  rw [el, er]

/-! ## A block of the product is the product of a block -/

/-- Row `y 0` of block `n` of the left array is row `5000·n + y 0` of the array. -/
abbrev rowOf (n : Nat) (hn : n < 20) (y : S5000x128.Idx) : Cert.ReferenceIdeal.S100000x128.Idx := fun a => match a with
  | ⟨0, _⟩ => ⟨n * 5000 + (y 0).val, by have h : (y 0).val < 5000 := (y 0).isLt; show n * 5000 + (y 0).val < 100000; omega⟩
  | ⟨1, _⟩ => ⟨(y 1).val, (y 1).isLt⟩

/-- If `x0` is block `n` of `X` (rows 5000·n …) and `x1` is `W`, then what the body stores at `j` is the whole
    product of `X` and `W` at the index `i` of the array that `j` sits at in block `n` of the output. -/
theorem block_eq (X : (⟨Cert.ReferenceIdeal.S100000x128, .f32⟩ : BufTy).Contents (Elt Ideal)) (W : (⟨Cert.ReferenceIdeal.S128x16, .f32⟩ : BufTy).Contents (Elt Ideal))
    (x0 : (⟨S5000x128, .f32⟩ : BufTy).Contents (Elt Ideal)) (x1 : (⟨S128x16, .f32⟩ : BufTy).Contents (Elt Ideal)) (n : Nat) (hn : n < 20)
    (h0 : ∀ y, x0 y = X (rowOf n hn y)) (h1 : ∀ y, x1 y = W y) (j : S5000x16.Idx) (i : Cert.ReferenceIdeal.S100000x16.Idx)
    (hi0 : (i 0).val = n * 5000 + (j 0).val) (hi1 : (i 1).val = (j 1).val) :
    k0_pay1 (F := Ideal) x0 x1 j = Cert.ReferenceIdeal.ReadP.val_main_v7 (F := Ideal) X W i := by
  rw [stored_apply, Cert.ReferenceIdeal.ReadP.val_main_v7_apply]
  refine Finset.sum_congr rfl fun k _ => ?_
  rw [h0, h1]
  exact congrArg₂ (· * ·)
    (congrArg X (funext fun a => Fin.ext (by
      match a with
      | ⟨0, _⟩ => exact hi0.symm
      | ⟨1, _⟩ => rfl)))
    (congrArg W (funext fun a => Fin.ext (by
      match a with
      | ⟨0, _⟩ => rfl
      | ⟨1, _⟩ => exact hi1.symm)))

/-! ## The output array after the call -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the left factor's and the output's blocks move down one block of rows per
    point, the right factor's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the two arrays the call was entered with. -/
theorem flushed_eq (c : Dev nD) (t : Fin cfg0.N) :
    (dat0 V c).flushed 2 t = ((cfg0.win 2).blk t).view.read (Elt Ideal) (Cert.ReferenceIdeal.ReadP.val_main_v7 (F := Ideal) (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x16) origin]
  obtain ⟨e0, e1, e2, e3, e4, e5⟩ := idx_facts t
  have ht : t.val < 20 := lt_of_lt_of_eq t.isLt N_0
  funext j
  show k0_pay1 (F := Ideal) (iblk0 V c 0 t) (iblk0 V c 1 t) j = Cert.ReferenceIdeal.ReadP.val_main_v7 (F := Ideal) (V c main_arg0) (V c main_arg2) (((cfg0.win 2).blk t).view.emb j)
  refine block_eq (V c main_arg0) (V c main_arg2) (iblk0 V c 0 t) (iblk0 V c 1 t) t.val ht ?_ ?_ j _ ?_ ?_
  · intro y
    show V c main_arg0 (((cfg0.win 0).blk t).view.emb y) = V c main_arg0 (rowOf t.val ht y)
    refine congrArg (V c main_arg0) (funext fun a => Fin.ext ?_)
    match a with
    | ⟨0, _⟩ => show win0_0.index t (0 : Fin 2) * 5000 + 1 * (y 0).val = t.val * 5000 + (y 0).val; omega
    | ⟨1, _⟩ => show win0_0.index t (1 : Fin 2) * 128 + 1 * (y 1).val = (y 1).val; omega
  · intro y
    show V c main_arg2 (((cfg0.win 1).blk t).view.emb y) = V c main_arg2 y
    refine congrArg (V c main_arg2) (funext fun a => Fin.ext ?_)
    match a with
    | ⟨0, _⟩ => show win0_1.index t (0 : Fin 2) * 128 + 1 * (y 0).val = (y 0).val; omega
    | ⟨1, _⟩ => show win0_1.index t (1 : Fin 2) * 16 + 1 * (y 1).val = (y 1).val; omega
  · show win0_2.index t (0 : Fin 2) * 5000 + 1 * (j 0).val = t.val * 5000 + (j 0).val; omega
  · show win0_2.index t (1 : Fin 2) * 16 + 1 * (j 1).val = (j 1).val; omega

/-- An index of the output array is in point `t`'s block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- Every index of the output is written: row `r` by point `r / 5000`. -/
theorem covered (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hq : (i 0).val / 5000 < cfg0.N := lt_of_lt_of_eq (by omega) N_0.symm
  refine ⟨⟨(i 0).val / 5000, hq⟩, flush0_2 _, ?_⟩
  obtain ⟨-, -, -, -, e4, e5⟩ := idx_facts ⟨(i 0).val / 5000, hq⟩
  rw [mem_blk]
  intro a
  match a with
  | ⟨0, _⟩ =>
    show win0_2.index ⟨(i 0).val / 5000, hq⟩ (0 : Fin 2) * 5000 ≤ (i 0).val ∧ (i 0).val < win0_2.index ⟨(i 0).val / 5000, hq⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hq⟩ (1 : Fin 2) * 16 ≤ (i 1).val ∧ (i 1).val < win0_2.index ⟨(i 0).val / 5000, hq⟩ (1 : Fin 2) * 16 + 16
    rw [e5]; omega

/-- After the call its output array holds the whole product of the two arrays it was entered with. -/
theorem arr_eq (c : Dev nD) :
    (dat0 V c).arrAt 2 cfg0.N = Cert.ReferenceIdeal.ReadP.val_main_v7 (F := Ideal) (V c main_arg0) (V c main_arg2) :=
  (dat0 V c).arrAt_eq_of_cover 2 _ (fun t _ => flushed_eq V c t) covered

end Cert.KernelIdeal.Region0

end
-- ==== Proof.Region1.lean ====
/-
  The second pallas_call of the kernel, read as a value over the extended reals.

  The call tiles the 100000 rows of a : [100000, 16] into 20 blocks of 5000 rows and keeps the bias row [1, 16] and
  W : [16, 128] whole. At grid point t it adds the bias row to every row of block t, clamps below at zero, and writes
  rows 5000·t … 5000·t + 4999 of its output: the matrix product of that clamped block with W, into a zero accumulator
  (the narrowing to bf16 is the identity at the exact instance). Adding a row and clamping act entry by entry, and row
  r of a product reads row r of the left factor only, so the twenty blocks are the restrictions of ONE array: any
  array G with G(r, q) = ∑ₖ max(a(r, k) + b(k), 0) · W(k, q), where the bias row holds b(k) over column k. The blocks
  tile the output (block r / 5000 holds row r), so after the call the output array IS G.
-/
import proofs.«128096_j32727650795996_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat)

/-! ## The body's product at an index -/

/-- On the left factor's row axis the product's operand index is the output's row. -/
theorem lhs_row (i : S5000x128.Idx) (q : dot_S5000x16_S16x128_S5000x128_1_0_0_1_n_n.contr.Idx) :
    (dot_S5000x16_S16x128_S5000x128_1_0_0_1_n_n.lhsIdx i q 0).val = (i 0).val := by
  unfold DotDims.lhsIdx
  rw [dif_neg (show ¬(0 : Fin S5000x16.rank) ∈ dot_S5000x16_S16x128_S5000x128_1_0_0_1_n_n.lhsBatch by decide), dif_pos (show (0 : Fin S5000x16.rank) ∈ dot_S5000x16_S16x128_S5000x128_1_0_0_1_n_n.lhsNonContracting by decide)]
  rfl
/-- On the left factor's column axis it is the summation index. -/
theorem lhs_sum (i : S5000x128.Idx) (q : dot_S5000x16_S16x128_S5000x128_1_0_0_1_n_n.contr.Idx) :
    (dot_S5000x16_S16x128_S5000x128_1_0_0_1_n_n.lhsIdx i q 1).val = (q ⟨0, by decide⟩).val :=
  dot_S5000x16_S16x128_S5000x128_1_0_0_1_n_n.lhsIdx_val_of_single rfl i q
/-- On the right factor's row axis it is the summation index. -/
theorem rhs_sum (i : S5000x128.Idx) (q : dot_S5000x16_S16x128_S5000x128_1_0_0_1_n_n.contr.Idx) :
    (dot_S5000x16_S16x128_S5000x128_1_0_0_1_n_n.rhsIdx i q 0).val = (q ⟨0, by decide⟩).val :=
  dot_S5000x16_S16x128_S5000x128_1_0_0_1_n_n.rhsIdx_val_of_single rfl i q
/-- On the right factor's column axis it is the output's column. -/
theorem rhs_col (i : S5000x128.Idx) (q : dot_S5000x16_S16x128_S5000x128_1_0_0_1_n_n.contr.Idx) :
    (dot_S5000x16_S16x128_S5000x128_1_0_0_1_n_n.rhsIdx i q 1).val = (i 1).val := by
  unfold DotDims.rhsIdx
  rw [dif_neg (show ¬(1 : Fin S16x128.rank) ∈ dot_S5000x16_S16x128_S5000x128_1_0_0_1_n_n.rhsBatch by decide), dif_pos (show (1 : Fin S16x128.rank) ∈ dot_S5000x16_S16x128_S5000x128_1_0_0_1_n_n.rhsNonContracting by decide)]
  rfl

/-- Entry (row of `j`, `k`) of a block of the left array. -/
abbrev leftAt (j : S5000x128.Idx) (k : Fin 16) : S5000x16.Idx := fun a => match a with
  | ⟨0, _⟩ => ⟨(j 0).val, (j 0).isLt⟩
  | ⟨1, _⟩ => ⟨k.val, k.isLt⟩
/-- Entry (`k`, column of `j`) of the right factor. -/
abbrev rightAt (j : S5000x128.Idx) (k : Fin 16) : S16x128.Idx := fun a => match a with
  | ⟨0, _⟩ => ⟨k.val, k.isLt⟩
  | ⟨1, _⟩ => ⟨(j 1).val, (j 1).isLt⟩
/-- The bias row's entry over column `y 1`. -/
abbrev biasAt (y : S5000x16.Idx) : S1x16.Idx := fun a => match a with
  | ⟨0, _⟩ => ⟨0, Nat.one_pos⟩
  | ⟨1, _⟩ => ⟨(y 1).val, (y 1).isLt⟩

/-- The bias row spread over the 5000 rows of a block, read at an index. -/
theorem spread_apply (x1 : Vec Ideal S1x16 .f32) (y : S5000x16.Idx) :
    broadcastTo S5000x16 x1 broadcasts_S1x16_S5000x16 y = x1 (biasAt y) :=
  broadcastTo_apply x1 broadcasts_S1x16_S5000x16 y (biasAt y) (fun a => match a with
    | ⟨0, _⟩ => by show 0 = if (1 : Nat) = 1 then 0 else (y 0).val; rw [if_pos rfl]
    | ⟨1, _⟩ => by show (y 1).val = if (16 : Nat) = 1 then 0 else (y 1).val; rw [if_neg (by decide)])

/-- The clamped, biased block the body multiplies, at an index. -/
theorem clamped_apply (x0 : Vec Ideal S5000x16 .f32) (x1 : Vec Ideal S1x16 .f32) (y : S5000x16.Idx) :
    maximumf (F := Ideal) (addf (F := Ideal) (shapeCast S5000x16 x0 shapeCasts_S5000x16_S5000x16) (broadcastTo S5000x16 (shapeCast S1x16 x1 shapeCasts_S1x16_S1x16) broadcasts_S1x16_S5000x16))
        (broadcast S5000x16 (Scalar.ofBits (F := Ideal) .f32 0x00000000#32)) y
      = FloatOps.maximumf (F := Ideal) (φ := .f32) (FloatOps.addf (F := Ideal) (φ := .f32) (x0 y) (x1 (biasAt y))) (Scalar.ofBits (F := Ideal) .f32 0x00000000#32) := by
  rw [shapeCast_self, shapeCast_self]
  show FloatOps.maximumf (F := Ideal) (φ := .f32) (FloatOps.addf (F := Ideal) (φ := .f32) (x0 y) (broadcastTo S5000x16 x1 broadcasts_S1x16_S5000x16 y)) (Scalar.ofBits (F := Ideal) .f32 0x00000000#32) = _
  rw [spread_apply]

/-- What the body stores, at an index: the sum over the 16 shared coordinates of clamped biased left entry times right
    entry. -/
theorem stored_apply (x0 : Vec Ideal S5000x16 .f32) (x1 : Vec Ideal S1x16 .f32) (x2 : Vec Ideal S16x128 .f32) (j : S5000x128.Idx) :
    k1_pay1 (F := Ideal) x0 x1 x2 j
      = ∑ k : Fin 16, FloatOps.maximumf (F := Ideal) (φ := .f32) (FloatOps.addf (F := Ideal) (φ := .f32) (x0 (leftAt j k)) (x1 (biasAt (leftAt j k)))) (Scalar.ofBits (F := Ideal) .f32 0x00000000#32) * x2 (rightAt j k) := by
  unfold k1_pay1
  refine (Ideal.matmul_constant_zero_apply dot_S5000x16_S16x128_S5000x128_1_0_0_1_n_n none _ _ j).trans ?_
  rw [← Equiv.sum_comp (ValueIdx.contrEquiv1 dot_S5000x16_S16x128_S5000x128_1_0_0_1_n_n 16 rfl rfl).symm]
  refine Finset.sum_congr rfl fun k _ => ?_
  have hk := ValueIdx.contrEquiv1_symm_val dot_S5000x16_S16x128_S5000x128_1_0_0_1_n_n 16 rfl rfl k
  have el : dot_S5000x16_S16x128_S5000x128_1_0_0_1_n_n.lhsIdx j ((ValueIdx.contrEquiv1 dot_S5000x16_S16x128_S5000x128_1_0_0_1_n_n 16 rfl rfl).symm k) = leftAt j k := funext fun a => Fin.ext (by
    match a with
    | ⟨0, _⟩ => exact lhs_row _ _
    | ⟨1, _⟩ => exact (lhs_sum _ _).trans hk)
  have er : dot_S5000x16_S16x128_S5000x128_1_0_0_1_n_n.rhsIdx j ((ValueIdx.contrEquiv1 dot_S5000x16_S16x128_S5000x128_1_0_0_1_n_n 16 rfl rfl).symm k) = rightAt j k := funext fun a => Fin.ext (by
    match a with
    | ⟨0, _⟩ => exact (rhs_sum _ _).trans hk
    | ⟨1, _⟩ => exact rhs_col _ _)
  show maximumf (F := Ideal) (addf (F := Ideal) (shapeCast S5000x16 x0 shapeCasts_S5000x16_S5000x16) (broadcastTo S5000x16 (shapeCast S1x16 x1 shapeCasts_S1x16_S1x16) broadcasts_S1x16_S5000x16))
        (broadcast S5000x16 (Scalar.ofBits (F := Ideal) .f32 0x00000000#32)) (dot_S5000x16_S16x128_S5000x128_1_0_0_1_n_n.lhsIdx j ((ValueIdx.contrEquiv1 dot_S5000x16_S16x128_S5000x128_1_0_0_1_n_n 16 rfl rfl).symm k))
      * x2 (dot_S5000x16_S16x128_S5000x128_1_0_0_1_n_n.rhsIdx j ((ValueIdx.contrEquiv1 dot_S5000x16_S16x128_S5000x128_1_0_0_1_n_n 16 rfl rfl).symm k)) = _
  rw [el, er, clamped_apply]

/-! ## A block of the array is the body's value on a block -/

/-- Row `y 0` of block `n` of the left array is row `5000·n + y 0` of the array. -/
abbrev rowOf (n : Nat) (hn : n < 20) (y : S5000x16.Idx) : S100000x16.Idx := fun a => match a with
  | ⟨0, _⟩ => ⟨n * 5000 + (y 0).val, by have h : (y 0).val < 5000 := (y 0).isLt; show n * 5000 + (y 0).val < 100000; omega⟩
  | ⟨1, _⟩ => ⟨(y 1).val, (y 1).isLt⟩
/-- The bias entry a row-shaped index sits over. -/
abbrev colOf (y : S1x16.Idx) : S16.Idx := fun a => match a with
  | ⟨0, _⟩ => ⟨(y 1).val, (y 1).isLt⟩
/-- Entry (row of `i`, `k`) of the left array. -/
abbrev leftOf (i : S100000x128.Idx) (k : Fin 16) : S100000x16.Idx := fun a => match a with
  | ⟨0, _⟩ => ⟨(i 0).val, (i 0).isLt⟩
  | ⟨1, _⟩ => ⟨k.val, k.isLt⟩
/-- The bias entry of the summation index. -/
abbrev biasOf (k : Fin 16) : S16.Idx := fun a => match a with
  | ⟨0, _⟩ => ⟨k.val, k.isLt⟩
/-- Entry (`k`, column of `i`) of the right factor. -/
abbrev rightOf (i : S100000x128.Idx) (k : Fin 16) : S16x128.Idx := fun a => match a with
  | ⟨0, _⟩ => ⟨k.val, k.isLt⟩
  | ⟨1, _⟩ => ⟨(i 1).val, (i 1).isLt⟩

section
variable (A : Vec Ideal S100000x16 .f32) (b : Vec Ideal S16 .f32) (W : Vec Ideal S16x128 .f32) (G : Vec Ideal S100000x128 .f32)

/-- If `a0` is block `n` of `A`, `b0` holds `b` as a row and `w0` is `W`, and `G` is the product with `W` of `A` with `b`
    added to every row and clamped below at zero, then what the body stores at `j` is `G` at the index `i` that `j`
    sits at in block `n`. -/
theorem block_eq (a0 : Vec Ideal S5000x16 .f32) (b0 : Vec Ideal S1x16 .f32) (w0 : Vec Ideal S16x128 .f32) (n : Nat) (hn : n < 20)
    (h0 : ∀ y, a0 y = A (rowOf n hn y)) (h1 : ∀ y, b0 y = b (colOf y)) (h2 : ∀ y, w0 y = W y)
    (hG : ∀ i, G i = ∑ k : Fin 16, FloatOps.maximumf (F := Ideal) (φ := .f32) (FloatOps.addf (F := Ideal) (φ := .f32) (A (leftOf i k)) (b (biasOf k))) (Scalar.ofBits (F := Ideal) .f32 0x00000000#32) * W (rightOf i k))
    (j : S5000x128.Idx) (i : S100000x128.Idx)
    (hi0 : (i 0).val = n * 5000 + (j 0).val) (hi1 : (i 1).val = (j 1).val) :
    k1_pay1 (F := Ideal) a0 b0 w0 j = G i := by
  rw [stored_apply, hG]
  refine Finset.sum_congr rfl fun k _ => ?_
  rw [h0, h1, h2]
  have er : rowOf n hn (leftAt j k) = leftOf i k := funext fun a => Fin.ext (by
    match a with
    | ⟨0, _⟩ => exact hi0.symm
    | ⟨1, _⟩ => rfl)
  have eb : colOf (biasAt (leftAt j k)) = biasOf k := funext fun a => Fin.ext (by
    match a with
    | ⟨0, _⟩ => rfl)
  have ew : rightAt j k = rightOf i k := funext fun a => Fin.ext (by
    match a with
    | ⟨0, _⟩ => rfl
    | ⟨1, _⟩ => exact hi1.symm)
  rw [er, eb, ew]
end

/-! ## The output array after the call -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the left array's and the output's blocks move down one block of rows per
    point, the bias row's and the weight's blocks stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (A : Vec Ideal S100000x16 .f32) (b : Vec Ideal S16 .f32) (W : Vec Ideal S16x128 .f32) (G : Vec Ideal S100000x128 .f32)

/-- What point `t` writes back is block `t` of `G`, when the call is entered with `A`, with `b` as a row and with `W`. -/
theorem flushed_eq (c : Dev nD) (t : Fin cfg1.N)
    (hA : V c main_v43 = A) (hB : ∀ y : S1x16.Idx, V c main_v44 y = b (colOf y)) (hW : V c main_arg4 = W)
    (hG : ∀ i, G i = ∑ k : Fin 16, FloatOps.maximumf (F := Ideal) (φ := .f32) (FloatOps.addf (F := Ideal) (φ := .f32) (A (leftOf i k)) (b (biasOf k))) (Scalar.ofBits (F := Ideal) .f32 0x00000000#32) * W (rightOf i k)) :
    (dat1 V c).flushed 3 t = ((cfg1.win 3).blk t).view.read (Elt Ideal) G := by
  show (cfg1.win 3).cut (grid1.coords t) ((dat1 V c).after 3 t) = _
  rw [after1_3]
  unfold out1_3
  rw [View.canon_unit_zero origin]
  simp only [View.ld_unit_zero (S := S5000x16) origin, View.ld_unit_zero (S := S1x16) origin, View.ld_unit_zero (S := S16x128) origin]
  obtain ⟨e0, e1, e2, e3, e4, e5, e6, e7⟩ := idx_facts t
  have ht : t.val < 20 := lt_of_lt_of_eq t.isLt N_1
  funext j
  show k1_pay1 (F := Ideal) (iblk1 V c 0 t) (iblk1 V c 1 t) (iblk1 V c 2 t) j = G (((cfg1.win 3).blk t).view.emb j)
  refine block_eq A b W G (iblk1 V c 0 t) (iblk1 V c 1 t) (iblk1 V c 2 t) t.val ht ?_ ?_ ?_ hG j _ ?_ ?_
  · intro y
    show V c main_v43 (((cfg1.win 0).blk t).view.emb y) = A (rowOf t.val ht y)
    rw [hA]
    refine congrArg A (funext fun a => Fin.ext ?_)
    match a with
    | ⟨0, _⟩ => show win1_0.index t (0 : Fin 2) * 5000 + 1 * (y 0).val = t.val * 5000 + (y 0).val; omega
    | ⟨1, _⟩ => show win1_0.index t (1 : Fin 2) * 16 + 1 * (y 1).val = (y 1).val; omega
  · intro y
    show V c main_v44 (((cfg1.win 1).blk t).view.emb y) = b (colOf y)
    rw [hB]
    refine congrArg b (funext fun a => Fin.ext ?_)
    match a with
    | ⟨0, _⟩ => show win1_1.index t (1 : Fin 2) * 16 + 1 * (y 1).val = (y 1).val; omega
  · intro y
    show V c main_arg4 (((cfg1.win 2).blk t).view.emb y) = W y
    rw [hW]
    refine congrArg W (funext fun a => Fin.ext ?_)
    match a with
    | ⟨0, _⟩ => show win1_2.index t (0 : Fin 2) * 16 + 1 * (y 0).val = (y 0).val; omega
    | ⟨1, _⟩ => show win1_2.index t (1 : Fin 2) * 128 + 1 * (y 1).val = (y 1).val; omega
  · show win1_3.index t (0 : Fin 2) * 5000 + 1 * (j 0).val = t.val * 5000 + (j 0).val; omega
  · show win1_3.index t (1 : Fin 2) * 128 + 1 * (j 1).val = (j 1).val; omega
end

/-- An index of the output array is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- Every index of the output is written: row `r` by point `r / 5000`. -/
theorem covered (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hq : (i 0).val / 5000 < cfg1.N := lt_of_lt_of_eq (by omega) N_1.symm
  refine ⟨⟨(i 0).val / 5000, hq⟩, flush1_3 _, ?_⟩
  obtain ⟨-, -, -, -, -, -, e6, e7⟩ := idx_facts ⟨(i 0).val / 5000, hq⟩
  rw [mem_blk]
  intro a
  match a with
  | ⟨0, _⟩ =>
    show win1_3.index ⟨(i 0).val / 5000, hq⟩ (0 : Fin 2) * 5000 ≤ (i 0).val ∧ (i 0).val < win1_3.index ⟨(i 0).val / 5000, hq⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, hq⟩ (1 : Fin 2) * 128 ≤ (i 1).val ∧ (i 1).val < win1_3.index ⟨(i 0).val / 5000, hq⟩ (1 : Fin 2) * 128 + 128
    rw [e7]; omega

section
variable (A : Vec Ideal S100000x16 .f32) (b : Vec Ideal S16 .f32) (W : Vec Ideal S16x128 .f32) (G : Vec Ideal S100000x128 .f32)

/-- After the call its output array holds `G`, when the call is entered with `A`, with `b` as a row and with `W`. -/
theorem arr_eq (c : Dev nD)
    (hA : V c main_v43 = A) (hB : ∀ y : S1x16.Idx, V c main_v44 y = b (colOf y)) (hW : V c main_arg4 = W)
    (hG : ∀ i, G i = ∑ k : Fin 16, FloatOps.maximumf (F := Ideal) (φ := .f32) (FloatOps.addf (F := Ideal) (φ := .f32) (A (leftOf i k)) (b (biasOf k))) (Scalar.ofBits (F := Ideal) .f32 0x00000000#32) * W (rightOf i k)) :
    (dat1 V c).arrAt 3 cfg1.N = G :=
  (dat1 V c).arrAt_eq_of_cover 3 G (fun t _ => flushed_eq V A b W G c t hA hB hW hG) covered
end

end Cert.KernelIdeal.Region1

end
-- ==== Proof.Region2.lean ====
/-
  The third pallas_call of the kernel, read as a value over the extended reals.

  The call tiles the 100000 rows of a : [100000, 128] into 20 blocks of 5000 rows, keeps the bias row [1, 128] whole,
  and at grid point t writes rows 5000·t … 5000·t + 4999 of its output: block t of a with the bias row added to every
  row. Adding a row acts entry by entry, so the twenty blocks are the restrictions of ONE array: any array G with
  G(r, q) = a(r, q) + b(q), where the bias row holds b(q) over column q. The blocks tile the output (block r / 5000
  holds row r), so after the call the output array IS G.
-/
import proofs.«128096_j32727650795996_1_alg».proof.Proof.Gen.KernelIdeal.Frame
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat)

/-! ## The body's sum at an index -/

/-- The bias row's entry over column `y 1`. -/
abbrev biasAt (y : S5000x128.Idx) : S1x128.Idx := fun a => match a with
  | ⟨0, _⟩ => ⟨0, Nat.one_pos⟩
  | ⟨1, _⟩ => ⟨(y 1).val, (y 1).isLt⟩

/-- The bias row spread over the 5000 rows of a block, read at an index. -/
theorem spread_apply (b0 : Vec Ideal S1x128 .f32) (y : S5000x128.Idx) :
    broadcastTo S5000x128 b0 broadcasts_S1x128_S5000x128 y = b0 (biasAt y) :=
  broadcastTo_apply b0 broadcasts_S1x128_S5000x128 y (biasAt y) (fun a => match a with
    | ⟨0, _⟩ => by show 0 = if (1 : Nat) = 1 then 0 else (y 0).val; rw [if_pos rfl]
    | ⟨1, _⟩ => by show (y 1).val = if (128 : Nat) = 1 then 0 else (y 1).val; rw [if_neg (by decide)])

/-- What the body stores, at an index: the block's entry plus the bias entry of its column. -/
theorem stored_apply (a0 : Vec Ideal S5000x128 .f32) (b0 : Vec Ideal S1x128 .f32) (j : S5000x128.Idx) :
    k2_pay1 (F := Ideal) a0 b0 j = FloatOps.addf (F := Ideal) (φ := .f32) (a0 j) (b0 (biasAt j)) := by
  unfold k2_pay1
  show FloatOps.addf (F := Ideal) (φ := .f32) (shapeCast S5000x128 a0 shapeCasts_S5000x128_S5000x128 j) (broadcastTo S5000x128 (shapeCast S1x128 b0 shapeCasts_S1x128_S1x128) broadcasts_S1x128_S5000x128 j) = _
  rw [shapeCast_self, shapeCast_self, spread_apply]

/-! ## A block of the array is the body's value on a block -/

/-- Row `y 0` of block `n` of the array is row `5000·n + y 0` of the array. -/
abbrev rowOf (n : Nat) (hn : n < 20) (y : S5000x128.Idx) : S100000x128.Idx := fun a => match a with
  | ⟨0, _⟩ => ⟨n * 5000 + (y 0).val, by have h : (y 0).val < 5000 := (y 0).isLt; show n * 5000 + (y 0).val < 100000; omega⟩
  | ⟨1, _⟩ => ⟨(y 1).val, (y 1).isLt⟩
/-- The bias entry a row-shaped index sits over. -/
abbrev colOf (y : S1x128.Idx) : S128.Idx := fun a => match a with
  | ⟨0, _⟩ => ⟨(y 1).val, (y 1).isLt⟩
/-- The bias entry an index of the array sits over. -/
abbrev colAt (i : S100000x128.Idx) : S128.Idx := fun a => match a with
  | ⟨0, _⟩ => ⟨(i 1).val, (i 1).isLt⟩

section
variable (A : Vec Ideal S100000x128 .f32) (b : Vec Ideal S128 .f32) (G : Vec Ideal S100000x128 .f32)

/-- If `a0` is block `n` of `A` and `b0` holds `b` as a row, and `G` is `A` with `b` added to every row, then what the
    body stores at `j` is `G` at the index `i` that `j` sits at in block `n`. -/
theorem block_eq (a0 : Vec Ideal S5000x128 .f32) (b0 : Vec Ideal S1x128 .f32) (n : Nat) (hn : n < 20)
    (h0 : ∀ y, a0 y = A (rowOf n hn y)) (h1 : ∀ y, b0 y = b (colOf y))
    (hG : ∀ i, G i = FloatOps.addf (F := Ideal) (φ := .f32) (A i) (b (colAt i)))
    (j : S5000x128.Idx) (i : S100000x128.Idx)
    (hi0 : (i 0).val = n * 5000 + (j 0).val) (hi1 : (i 1).val = (j 1).val) :
    k2_pay1 (F := Ideal) a0 b0 j = G i := by
  rw [stored_apply, hG, h0, h1]
  have er : rowOf n hn j = i := funext fun a => Fin.ext (by
    match a with
    | ⟨0, _⟩ => exact hi0.symm
    | ⟨1, _⟩ => exact hi1.symm)
  have eb : colOf (biasAt j) = colAt i := funext fun a => Fin.ext (by
    match a with
    | ⟨0, _⟩ => exact hi1.symm)
  rw [er, eb]
end

/-! ## The output array after the call -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the array's and the output's blocks move down one block of rows per point,
    the bias row's block stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (A : Vec Ideal S100000x128 .f32) (b : Vec Ideal S128 .f32) (G : Vec Ideal S100000x128 .f32)

/-- What point `t` writes back is block `t` of `G`, when the call is entered with `A` and with `b` as a row. -/
theorem flushed_eq (c : Dev nD) (t : Fin cfg2.N)
    (hA : V c main_v58 = A) (hB : ∀ y : S1x128.Idx, V c main_v59 y = b (colOf y))
    (hG : ∀ i, G i = FloatOps.addf (F := Ideal) (φ := .f32) (A i) (b (colAt i))) :
    (dat2 V c).flushed 2 t = ((cfg2.win 2).blk t).view.read (Elt Ideal) G := by
  show (cfg2.win 2).cut (grid2.coords t) ((dat2 V c).after 2 t) = _
  rw [after2_2]
  unfold out2_2
  rw [View.canon_unit_zero origin]
  simp only [View.ld_unit_zero (S := S5000x128) origin, View.ld_unit_zero (S := S1x128) origin]
  obtain ⟨e0, e1, e2, e3, e4, e5⟩ := idx_facts t
  have ht : t.val < 20 := lt_of_lt_of_eq t.isLt N_2
  funext j
  show k2_pay1 (F := Ideal) (iblk2 V c 0 t) (iblk2 V c 1 t) j = G (((cfg2.win 2).blk t).view.emb j)
  refine block_eq A b G (iblk2 V c 0 t) (iblk2 V c 1 t) t.val ht ?_ ?_ hG j _ ?_ ?_
  · intro y
    show V c main_v58 (((cfg2.win 0).blk t).view.emb y) = A (rowOf t.val ht y)
    rw [hA]
    refine congrArg A (funext fun a => Fin.ext ?_)
    match a with
    | ⟨0, _⟩ => show win2_0.index t (0 : Fin 2) * 5000 + 1 * (y 0).val = t.val * 5000 + (y 0).val; omega
    | ⟨1, _⟩ => show win2_0.index t (1 : Fin 2) * 128 + 1 * (y 1).val = (y 1).val; omega
  · intro y
    show V c main_v59 (((cfg2.win 1).blk t).view.emb y) = b (colOf y)
    rw [hB]
    refine congrArg b (funext fun a => Fin.ext ?_)
    match a with
    | ⟨0, _⟩ => show win2_1.index t (1 : Fin 2) * 128 + 1 * (y 1).val = (y 1).val; omega
  · show win2_2.index t (0 : Fin 2) * 5000 + 1 * (j 0).val = t.val * 5000 + (j 0).val; omega
  · show win2_2.index t (1 : Fin 2) * 128 + 1 * (j 1).val = (j 1).val; omega
end

/-- An index of the output array is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v60).slice (win2_2.rect t)).set ↔ _
  rw [View.set_slice_whole, Rect.mem_set_unit]
  exact Iff.rfl

/-- Every index of the output is written: row `r` by point `r / 5000`. -/
theorem covered (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hq : (i 0).val / 5000 < cfg2.N := lt_of_lt_of_eq (by omega) N_2.symm
  refine ⟨⟨(i 0).val / 5000, hq⟩, flush2_2 _, ?_⟩
  obtain ⟨-, -, -, -, e4, e5⟩ := idx_facts ⟨(i 0).val / 5000, hq⟩
  rw [mem_blk]
  intro a
  match a with
  | ⟨0, _⟩ =>
    show win2_2.index ⟨(i 0).val / 5000, hq⟩ (0 : Fin 2) * 5000 ≤ (i 0).val ∧ (i 0).val < win2_2.index ⟨(i 0).val / 5000, hq⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hq⟩ (1 : Fin 2) * 128 ≤ (i 1).val ∧ (i 1).val < win2_2.index ⟨(i 0).val / 5000, hq⟩ (1 : Fin 2) * 128 + 128
    rw [e5]; omega

section
variable (A : Vec Ideal S100000x128 .f32) (b : Vec Ideal S128 .f32) (G : Vec Ideal S100000x128 .f32)

/-- After the call its output array holds `G`, when the call is entered with `A` and with `b` as a row. -/
theorem arr_eq (c : Dev nD)
    (hA : V c main_v58 = A) (hB : ∀ y : S1x128.Idx, V c main_v59 y = b (colOf y))
    (hG : ∀ i, G i = FloatOps.addf (F := Ideal) (φ := .f32) (A i) (b (colAt i))) :
    (dat2 V c).arrAt 2 cfg2.N = G :=
  (dat2 V c).arrAt_eq_of_cover 2 G (fun t _ => flushed_eq V A b G c t hA hB hG) covered
end

end Cert.KernelIdeal.Region2

end
-- ==== Proof.Join.lean ====
/-
  The kernel's result array is the reference's.

  Each pallas_call's output is read off the run's record of its write-backs (one array per call, because the blocks
  are restrictions of one array and tile the output), and each stretch of host lines between the calls is the
  reference's own. So, call by call: the first call leaves the reference's first product x · W1; the lines after it
  leave the reference's first aggregate; the second call, entered with that aggregate, the first bias as a row and W2,
  leaves the reference's second product max(aggregate + b1, 0) · W2 — the reference's bias add, relu and dot_general read
  at an index are the same sum over the 16 shared coordinates —; the lines after it leave the reference's second
  aggregate; and the third call, entered with that and the second bias as a row, leaves aggregate + b2, the
  reference's result. No law of the extended reals is used beyond reading both sides at an index: the two programs
  perform the same operations in the same order, the kernel's three dense ones a block of rows at a time.
-/
import proofs.«128096_j32727650795996_1_alg».proof.Proof.RunNamed
import proofs.«128096_j32727650795996_1_alg».proof.Proof.Fold
import proofs.«128096_j32727650795996_1_alg».proof.Proof.Region0
import proofs.«128096_j32727650795996_1_alg».proof.Proof.Region1
import proofs.«128096_j32727650795996_1_alg».proof.Proof.Region2

set_option maxRecDepth 16384

noncomputable section

namespace Cert.KernelIdeal.Join

open Cert.KernelIdeal Cert.KernelIdeal.Gen Cert.KernelIdeal.Fold
open Idealize.ShloMosaic Idealize.ShloMosaic.TcCoe Idealize.SL.Sem

/-! ## The reference's second product and its result, read at an index in the kernel's coordinates -/

/-- The reference's second product at an index: the sum over the 16 shared coordinates of the clamped, biased first
    aggregate times the second weight. -/
theorem prod2_apply (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x16, .f32⟩ : BufTy).Contents (Elt Ideal)) (x3 : (⟨Cert.ReferenceIdeal.S16, .f32⟩ : BufTy).Contents (Elt Ideal)) (x4 : (⟨Cert.ReferenceIdeal.S16x128, .f32⟩ : BufTy).Contents (Elt Ideal)) (i : S100000x128.Idx) :
    Cert.ReferenceIdeal.ReadP.val_main_v48 (F := Ideal) x0 x1 x2 x3 x4 i
      = ∑ k : Fin 16, FloatOps.maximumf (F := Ideal) (φ := .f32) (FloatOps.addf (F := Ideal) (φ := .f32) (Cert.ReferenceIdeal.ReadP.val_main_v43 (F := Ideal) x0 x1 x2 (Region1.leftOf i k)) (x3 (Region1.biasOf k))) (Scalar.ofBits (F := Ideal) .f32 0x00000000#32) * x4 (Region1.rightOf i k) := by
  rw [Cert.ReferenceIdeal.ReadP.val_main_v48_apply]
  refine Finset.sum_congr rfl fun k _ => ?_
  rw [Cert.ReferenceIdeal.ReadP.val_main_v47_apply, Cert.ReferenceIdeal.ReadP.val_main_v46_apply, Cert.ReferenceIdeal.ReadP.val_main_v45_apply, Cert.ReferenceIdeal.ReadP.val_main_v44_apply, Cert.ReferenceIdeal.ReadP.val_main_call1_v0_apply, Cert.ReferenceIdeal.ReadP.val_main_call1_cst_apply]
  have eb : Cert.ReferenceIdeal.ReadP.idx_main_v44 (Cert.ReferenceIdeal.ReadP.idx_main_v45 (Cert.ReferenceIdeal.ReadP.lidx_main_v48 i k)) = Region1.biasOf k := funext fun a => Fin.ext (by
    match a with
    | ⟨0, _⟩ => rfl)
  have el : Cert.ReferenceIdeal.ReadP.lidx_main_v48 i k = Region1.leftOf i k := funext fun a => Fin.ext (by
    match a with
    | ⟨0, _⟩ => rfl
    | ⟨1, _⟩ => rfl)
  have er : Cert.ReferenceIdeal.ReadP.ridx_main_v48 i k = Region1.rightOf i k := funext fun a => Fin.ext (by
    match a with
    | ⟨0, _⟩ => rfl
    | ⟨1, _⟩ => rfl)
  have ez : FloatOps.ofBits (F := Ideal) .f32 0x00000000#32 = Scalar.ofBits (F := Ideal) .f32 0x00000000#32 := rfl
  rw [eb, el, er, ez]

/-- The reference's result at an index: its second aggregate plus the second bias entry of the column. -/
theorem sum_apply (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x16, .f32⟩ : BufTy).Contents (Elt Ideal)) (x3 : (⟨Cert.ReferenceIdeal.S16, .f32⟩ : BufTy).Contents (Elt Ideal)) (x4 : (⟨Cert.ReferenceIdeal.S16x128, .f32⟩ : BufTy).Contents (Elt Ideal)) (x5 : (⟨Cert.ReferenceIdeal.S128, .f32⟩ : BufTy).Contents (Elt Ideal)) (i : S100000x128.Idx) :
    Cert.ReferenceIdeal.ReadP.val_main_v87 (F := Ideal) x0 x1 x2 x3 x4 x5 i
      = FloatOps.addf (F := Ideal) (φ := .f32) (Cert.ReferenceIdeal.ReadP.val_main_v84 (F := Ideal) x0 x1 x2 x3 x4 i) (x5 (Region2.colAt i)) := by
  rw [Cert.ReferenceIdeal.ReadP.val_main_v87_apply, Cert.ReferenceIdeal.ReadP.val_main_v86_apply, Cert.ReferenceIdeal.ReadP.val_main_v85_apply]
  have e : Cert.ReferenceIdeal.ReadP.idx_main_v85 (Cert.ReferenceIdeal.ReadP.idx_main_v86 i) = Region2.colAt i := funext fun a => Fin.ext (by
    match a with
    | ⟨0, _⟩ => rfl)
  rw [e]

/-! ## Call by call -/

variable (m : (ℓ : Loc nD τ sig) → Buf (Elt Ideal) ℓ) (ρ : Dev nD → PrngReg) (c : Dev nD)

/-- The first call leaves the reference's first product in its output. -/
theorem out0 : W4 m ρ c (Proc.devRef .tc main_v30) = Cert.ReferenceIdeal.ReadP.val_main_v7 (F := Ideal) (A0 m c) (A2 m c) := by
  have h := Region0.arr_eq (V3 m ρ) c
  rw [show V3 m ρ c main_arg0 = A0 m c from arg0_3 m ρ c, show V3 m ρ c main_arg2 = A2 m c from arg2_3 m ρ c] at h
  exact (W4_arr m ρ c 2).trans h

/-- The second call leaves the reference's second product in its output. -/
theorem out1 : W6 m ρ c (Proc.devRef .tc main_v45) = Cert.ReferenceIdeal.ReadP.val_main_v48 (F := Ideal) (A0 m c) (A1 m c) (A2 m c) (A3 m c) (A4 m c) :=
  (W6_arr m ρ c 3).trans
    (Region1.arr_eq (V5 m ρ) (Cert.ReferenceIdeal.ReadP.val_main_v43 (F := Ideal) (A0 m c) (A1 m c) (A2 m c)) (A3 m c) (A4 m c)
      (Cert.ReferenceIdeal.ReadP.val_main_v48 (F := Ideal) (A0 m c) (A1 m c) (A2 m c) (A3 m c) (A4 m c)) c
      (agg1 m ρ c (out0 m ρ c)) (fun y => bias1_row m ρ c y) (arg4_5 m ρ c)
      (fun i => prod2_apply (A0 m c) (A1 m c) (A2 m c) (A3 m c) (A4 m c) i))

/-- The third call leaves the reference's result in its output, the program's result array. -/
theorem result_eq : W8 m ρ c (Proc.devRef .tc main_v60) = Cert.ReferenceIdeal.ReadP.val_main_v87 (F := Ideal) (A0 m c) (A1 m c) (A2 m c) (A3 m c) (A4 m c) (A5 m c) :=
  (W8_arr m ρ c 2).trans
    (Region2.arr_eq (V7 m ρ) (Cert.ReferenceIdeal.ReadP.val_main_v84 (F := Ideal) (A0 m c) (A1 m c) (A2 m c) (A3 m c) (A4 m c)) (A5 m c)
      (Cert.ReferenceIdeal.ReadP.val_main_v87 (F := Ideal) (A0 m c) (A1 m c) (A2 m c) (A3 m c) (A4 m c) (A5 m c)) c
      (agg2 m ρ c (out1 m ρ c)) (fun y => bias2_row m ρ c y)
      (fun i => sum_apply (A0 m c) (A1 m c) (A2 m c) (A3 m c) (A4 m c) (A5 m c) i))

/-- The kernel's run with its result named as the reference's stage of the launch contents of the arguments. -/
theorem run : θ_run defs (onTc (τ := τ) (main (F := Ideal))) ⟨m, fun _ => 0, ρ⟩ (fun r => ∀ c : Dev nD,
      r.2.mem ((c.tc : Thread nD τ).loc main_v60) = Cert.ReferenceIdeal.ReadP.val_main_v87 (F := Ideal) (A0 m c) (A1 m c) (A2 m c) (A3 m c) (A4 m c) (A5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Cert.KernelIdeal.Named.run_named m ρ)

end Cert.KernelIdeal.Join

end
-- ==== Proof.lean ====
/-
  A two-layer graph convolution, out = Â · relu(Â · (x · W1) + b1) · W2 + b2 with Â the degree-normalised adjacency
  (self-loops added), computed by a kernel program of three pallas_calls among host lines, against the plain
  reference.

  Both programs build the edge list, the degrees and the edge weights by the same host lines, and aggregate by the
  same gather, scaling and scatter-add. They differ only in where the three dense steps run: the kernel computes
  x · W1, then max(aggregate + b1, 0) · W2, then aggregate + b2 each in a pallas_call that walks the 100000 rows in 20
  blocks of 5000, the reference as one dot_general, one add and relu and dot_general, and one add. Each dense step
  acts row by row (a row of a product reads one row of the left factor; adding a bias row and clamping act entry by
  entry), so the blocks a call writes are the restrictions of the one array the reference computes, and they tile
  it. Hence the result arrays are equal entry by entry over the extended reals, with no appeal to finiteness of the
  inputs: no sum is regrouped and no factor is moved (Proof/Region0–2: a block of each dense step; Proof/Fold: the
  host lines between the calls; Proof/Join: call by call).

  The three frames: the kernel programs' runs terminate without fault with the arguments unchanged (the generated
  frame of the three regions), and so does the reference's run. The idealisation rewrote nothing, so its
  preservation claim is empty.
-/
import proofs.«128096_j32727650795996_1_alg».proof.Defs
import proofs.«128096_j32727650795996_1_alg».proof.Proof.Gen.Kernel
import proofs.«128096_j32727650795996_1_alg».proof.Proof.Gen.Kernel.Skeleton
import proofs.«128096_j32727650795996_1_alg».proof.Proof.Gen.Kernel.Launch
import proofs.«128096_j32727650795996_1_alg».proof.Proof.Gen.Kernel.Points
import proofs.«128096_j32727650795996_1_alg».proof.Proof.Gen.Kernel.Frame
import proofs.«128096_j32727650795996_1_alg».proof.Proof.Gen.KernelIdeal
import proofs.«128096_j32727650795996_1_alg».proof.Proof.Gen.KernelIdeal.Skeleton
import proofs.«128096_j32727650795996_1_alg».proof.Proof.Gen.KernelIdeal.Launch
import proofs.«128096_j32727650795996_1_alg».proof.Proof.Gen.KernelIdeal.Points
import proofs.«128096_j32727650795996_1_alg».proof.Proof.Gen.KernelIdeal.Frame
import proofs.«128096_j32727650795996_1_alg».proof.Proof.Gen.ReferenceIdeal
import proofs.«128096_j32727650795996_1_alg».proof.Proof.Gen.Pre_finite_inputs
import proofs.«128096_j32727650795996_1_alg».proof.Proof.RefRun
import proofs.«128096_j32727650795996_1_alg».proof.Proof.RefRead
import proofs.«128096_j32727650795996_1_alg».proof.Proof.Join
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the same result array: the reference's last
    stage of the arguments (the kernel's by Proof/Join, the reference's by its run). -/
theorem algebraic : Cert.algebraic_KernelIdeal_ReferenceIdeal := by
  intro m ρ m' ρ' _ hagree
  refine ⟨fun c => Cert.ReferenceIdeal.ReadP.val_main_v87 (F := Ideal) (Cert.KernelIdeal.Fold.A0 m c) (Cert.KernelIdeal.Fold.A1 m c)
      (Cert.KernelIdeal.Fold.A2 m c) (Cert.KernelIdeal.Fold.A3 m c) (Cert.KernelIdeal.Fold.A4 m c) (Cert.KernelIdeal.Fold.A5 m c),
    Cert.KernelIdeal.Join.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v87_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
